-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S_ : Shape := ⟨0, ![]⟩
abbrev S128x128 : Shape := ⟨2, ![128, 128]⟩
abbrev S128 : Shape := ⟨1, ![128]⟩
abbrev S1x625000 : Shape := ⟨2, ![1, 625000]⟩
abbrev S625000 : Shape := ⟨1, ![625000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x625000_S1x625000_1_0 : S2x625000.Slices ![1, 0] S1x625000
  shapeCasts_S1x625000_S625000 : S1x625000.ShapeCasts S625000
  bcast_S_S625000 : S_.BroadcastsInDim S625000 (![] : Fin 0 → Fin S625000.rank)
  reducesTo_S625000_S_d0 : S625000.ReducesTo [0] S_

variable [Facts]

def fn_part2 {F : FTy → Type} [FloatOps F] (main_arg1 : IVec S2x625000 32) (main_v33 : IVec S_ 1) : IVec S_ 1 :=
  let main_v34 : IVec S1x625000 32 := (extractStridedSlice S1x625000 ![1, 0] · slices_S2x625000_S1x625000_1_0) main_arg1
  let main_v35 : IVec S625000 32 := shapeCast S625000 main_v34 shapeCasts_S1x625000_S625000
  let main_c_12 : IVec S_ 32 := constantI S_ 32 50000#32
  let main_v36 : IVec S625000 32 := broadcastInDim S625000 ![] bcast_S_S625000 main_c_12
  let main_v37 : IVec S625000 1 := cmpi .slt main_v35 main_v36
  let main_c_13 : IVec S_ 1 := constantI S_ 1 1#1
  let main_v38 : IVec S_ 1 := (fun x v => Host.reduce IntOp.andi x v reducesTo_S625000_S_d0 h_S_) main_v37 main_c_13
  let main_v39 : IVec S_ 1 := andi main_v33 main_v38
  main_v39

def fn_part1 {F : FTy → Type} [FloatOps F] (main_arg1 : IVec S2x625000 32) (main_arg5 : FVec F S128x128 .f32) (main_arg6 : FVec F S128 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg5
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : IVec S1x625000 32 := (extractStridedSlice S1x625000 ![1, 0] · slices_S2x625000_S1x625000_1_0) main_arg1
  let main_v29 : IVec S625000 32 := shapeCast S625000 main_v28 shapeCasts_S1x625000_S625000
  let main_c_10 : IVec S_ 32 := constantI S_ 32 4294917296#32
  let main_v30 : IVec S625000 32 := broadcastInDim S625000 ![] bcast_S_S625000 main_c_10
  let main_v31 : IVec S625000 1 := cmpi .sge main_v29 main_v30
  let main_c_11 : IVec S_ 1 := constantI S_ 1 1#1
  let main_v32 : IVec S_ 1 := (fun x v => Host.reduce IntOp.andi x v reducesTo_S625000_S_d0 h_S_) main_v31 main_c_11
  let main_v33 : IVec S_ 1 := andi main_v27 main_v32
  fn_part2 (F := F) main_arg1 main_v33

def fn {F : FTy → Type} [FloatOps F] (main_arg0 : FVec F S50000x128 .f32) (main_arg1 : IVec S2x625000 32) (main_arg2 : FVec F S_ .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg1 main_arg5 main_arg6 main_v12 main_v15 main_c_5
-- ==== Kernel.lean ====
abbrev S50000x128 : Shape := ⟨2, ![50000, 128]⟩
abbrev S2x625000 : Shape := ⟨2, ![2, 625000]⟩
abbrev S_ : Shape := ⟨0, ![]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S2000x128 : Shape := ⟨2, ![2000, 128]⟩
abbrev S1x128 : Shape := ⟨2, ![1, 128]⟩
abbrev S625000x1 : Shape := ⟨2, ![625000, 1]⟩
abbrev S1 : Shape := ⟨1, ![1]⟩
abbrev S1x1 : Shape := ⟨2, ![1, 1]⟩
abbrev S625000x128 : Shape := ⟨2, ![625000, 128]⟩

abbrev nBuf : Space → Nat
  | .hbm => 47
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S128x128, .f32⟩
  | .hbm, ⟨12, _⟩ => ⟨S50000x128, .f32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S1, .i32⟩
  | .hbm, ⟨22, _⟩ => ⟨S_, .i32⟩
  | .hbm, ⟨23, _⟩ => ⟨S625000x1, .i32⟩
  | .hbm, ⟨24, _⟩ => ⟨S625000x1, .i1⟩
  | .hbm, ⟨25, _⟩ => ⟨S1x1, .i32⟩
  | .hbm, ⟨26, _⟩ => ⟨S625000x1, .i32⟩
  | .hbm, ⟨27, _⟩ => ⟨S625000x1, .i1⟩
  | .hbm, ⟨28, _⟩ => ⟨S625000x1, .i1⟩
  | .hbm, ⟨29, _⟩ => ⟨S_, .i1⟩
  | .hbm, ⟨30, _⟩ => ⟨S625000, .i1⟩
  | .hbm, ⟨31, _⟩ => ⟨S625000x128, .f32⟩
  | .hbm, ⟨32, _⟩ => ⟨S625000x128, .i1⟩
  | .hbm, ⟨33, _⟩ => ⟨S_, .f32⟩
  | .hbm, ⟨34, _⟩ => ⟨S625000x128, .f32⟩
  | .hbm, ⟨35, _⟩ => ⟨S625000x128, .f32⟩
  | .hbm, ⟨36, _⟩ => ⟨S_, .f32⟩
  | .hbm, ⟨37, _⟩ => ⟨S50000x128, .f32⟩
  | .hbm, ⟨38, _⟩ => ⟨S625000x1, .i32⟩
  | .hbm, ⟨39, _⟩ => ⟨S50000x128, .f32⟩
  | .hbm, ⟨40, _⟩ => ⟨S_, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  reducesTo_S625000x1_S625000_d1 : S625000x1.ReducesTo [1] S625000
  h_S_ : 0 < S_.numel
  bcast_S625000_S625000x128_0 : S625000.BroadcastsInDim S625000x128 (![0] : Fin 1 → Fin S625000x128.rank)
  bcast_S_S625000x128 : S_.BroadcastsInDim S625000x128 (![] : Fin 0 → Fin S625000x128.rank)
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S_ : Shape := ⟨0, ![]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S1x128 : Shape := ⟨2, ![1, 128]⟩
abbrev S625000x1 : Shape := ⟨2, ![625000, 1]⟩
abbrev S625000x128 : Shape := ⟨2, ![625000, 128]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S625000x128, .f32⟩
  | .hbm, ⟨24, _⟩ => ⟨S_, .f32⟩
  | .hbm, ⟨25, _⟩ => ⟨S50000x128, .f32⟩
  | .hbm, ⟨26, _⟩ => ⟨S625000x1, .i32⟩
  | .hbm, ⟨27, _⟩ => ⟨S50000x128, .f32⟩
  | .hbm, ⟨28, _⟩ => ⟨S_, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  dot_S50000x128_S128x128_S50000x128_1_1_0_0_n_n_wf : DotDims.WF S50000x128 S128x128 S50000x128 [1] [1] [0] [0] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1

variable [Facts₀]

def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

class Facts : Prop extends Facts₀ where

variable [Facts]
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.Payload.lean ====
/-
  The two kernel bodies at an index, over the extended reals. Both load a [2000,128] block x, a [128,128] matrix w
  (already laid out [k, column]) and a [128] bias b; the changes of float format are the identity, the matrix-unit
  product into zeros is the sum over k of x(p,k) * w(k,q), the bias is broadcast along the rows. The second body
  also takes the maximum with zero.
-/
import proofs.«402811_j88493506166790_2_alg».proof.Proof.Gen.KernelIdeal.Skeleton
import proofs.«402811_j88493506166790_2_alg».proof.Proof.LibContract
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The bias vector, given a unit leading axis and broadcast along the 2000 rows, read at (p, q), is b(q). -/
theorem bias_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) (fun a => ?_)).trans ?_
  · match a with
    | ⟨0, _⟩ => rfl
    | ⟨1, _⟩ => rfl
  · refine (shapeCast_addUnit_apply (n := 1) ![128] b shapeCasts_S128_S1x128 (ix2 (0 : Fin 1) q)).trans ?_
    refine congrArg b (funext fun a => ?_)
    match a with
    | ⟨0, _⟩ => rfl

/-- The first body at (p, q): the row of x against the column of w, plus the bias. -/
theorem pay0_apply (x : Vec Ideal S2000x128 .f32) (w : Vec Ideal S128x128 .f32) (b : Vec Ideal S128 .f32)
    (p : Fin 2000) (q : Fin 128) :
    k0_pay1 (F := Ideal) x w b (ix2 p q) = (∑ k : Fin 128, x (ix2 p k) * w (ix2 k q)) + b (ix1 q) := by
  unfold k0_pay1
  rw [shapeCast_self]
  refine congrArg₂ (· + ·) ?_ (bias_apply b p q)
  exact Cert.LibContract.matmul_plain (M := 2000) (K := 128) (N := 128) dot_S2000x128_S128x128_S2000x128_1_0_0_1_n_n
    rfl rfl rfl rfl rfl rfl none _ _ p q

/-- The second body at (p, q): the same, then the maximum with zero. -/
theorem pay1_apply (x : Vec Ideal S2000x128 .f32) (w : Vec Ideal S128x128 .f32) (b : Vec Ideal S128 .f32)
    (p : Fin 2000) (q : Fin 128) :
    k1_pay1 (F := Ideal) x w b (ix2 p q) = max ((∑ k : Fin 128, x (ix2 p k) * w (ix2 k q)) + b (ix1 q)) 0 := by
  unfold k1_pay1
  rw [shapeCast_self, shapeCast_self]
  refine congrArg₂ max (congrArg₂ (· + ·) ?_ (bias_apply b p q)) ?_
  · exact Cert.LibContract.matmul_plain (M := 2000) (K := 128) (N := 128) dot_S2000x128_S128x128_S2000x128_1_0_0_1_n_n
      rfl rfl rfl rfl rfl rfl none _ _ p q
  · exact Ideal.ofBits_zero_f32

end Cert.KernelIdeal.Body

end
-- ==== Proof.Spec.lean ====
/-
  The map both programs apply twice: an [50000,128] array A against a [128,128] weight matrix plus a [128] bias,
  over the extended reals, and the same followed by the maximum with zero. The weights come in two layouts:
  Wt laid out [k, g] (the matrix the kernel is handed, already transposed), out(n, g) = sum over k of
  A(n, k) * Wt(k, g) + b(g); and W laid out [g, k] (the matrix as given, which the reference contracts along its
  second axis), out(n, g) = sum over k of A(n, k) * W(g, k) + b(g). Through the transpose they are one map.
-/
import Idealize.ShloMosaic.Lib.ValueIdx
import Idealize.ShloMosaic.Lib.Pipeline.Value
import Idealize.ShloMosaic.PureOps.Ideal

noncomputable section

namespace Cert.Spec

open Idealize.ShloMosaic Idealize.ShloMosaic.ValueIdx
open scoped BigOperators

abbrev SN : Shape := ⟨2, ![50000, 128]⟩
abbrev SW : Shape := ⟨2, ![128, 128]⟩
abbrev SB : Shape := ⟨1, ![128]⟩

/-- Row n of A against column g of Wt, plus the bias at g. -/
def affine (A : SN.Idx → EReal) (Wt : SW.Idx → EReal) (b : SB.Idx → EReal) : SN.Idx → EReal :=
  fun i => (∑ k : Fin 128, A (ix2 (i 0) k) * Wt (ix2 k (i 1))) + b (ix1 (i 1))

/-- The same, then the maximum with zero. -/
def affineRelu (A : SN.Idx → EReal) (Wt : SW.Idx → EReal) (b : SB.Idx → EReal) : SN.Idx → EReal :=
  fun i => max (affine A Wt b i) 0

/-- Row n of A against row g of W, plus the bias at g. -/
def affineT (A : SN.Idx → EReal) (W : SW.Idx → EReal) (b : SB.Idx → EReal) : SN.Idx → EReal :=
  fun i => (∑ k : Fin 128, A (ix2 (i 0) k) * W (ix2 (i 1) k)) + b (ix1 (i 1))

/-- The same, then the maximum with zero. -/
def affineReluT (A : SN.Idx → EReal) (W : SW.Idx → EReal) (b : SB.Idx → EReal) : SN.Idx → EReal :=
  fun i => max (affineT A W b i) 0

/-- The transposed matrix at (k, g) is the matrix at (g, k). -/
theorem transpose_at (W : SW.Idx → EReal) (h : SW.Transposes [1, 0] SW) (k g : Fin 128) :
    transpose SW [1, 0] W h (ix2 k g) = W (ix2 g k) :=
  transpose_apply [1, 0] W h (ix2 k g) (ix2 g k) (fun b => by
    match b with
    | ⟨0, _⟩ => rfl
    | ⟨1, _⟩ => rfl)

theorem affine_transpose (A : SN.Idx → EReal) (W : SW.Idx → EReal) (h : SW.Transposes [1, 0] SW) (b : SB.Idx → EReal) :
    affine A (transpose SW [1, 0] W h) b = affineT A W b := by
  funext i
  unfold affine affineT
  refine congrArg (· + b (ix1 (i 1))) (Finset.sum_congr rfl fun k _ => ?_)
  exact congrArg (A (ix2 (i 0) k) * ·) (transpose_at W h k (i 1))

theorem affineRelu_transpose (A : SN.Idx → EReal) (W : SW.Idx → EReal) (h : SW.Transposes [1, 0] SW) (b : SB.Idx → EReal) :
    affineRelu A (transpose SW [1, 0] W h) b = affineReluT A W b := by
  funext i
  unfold affineRelu affineReluT
  exact congrArg (max · 0) (congrFun (affine_transpose A W h b) i)

end Cert.Spec

end
-- ==== Proof.Region0.lean ====
/-
  The first pallas_call's result array. Its grid has 25 points; point t reads rows 2000t .. 2000t+1999 of the
  [50000,128] operand, the whole [128,128] matrix and the whole bias, and writes back rows 2000t .. 2000t+1999 of
  the result. The 25 row blocks tile the result, so it ends holding the affine map of the three arrays as the
  region finds them, whatever those are.
-/
import proofs.«402811_j88493506166790_2_alg».proof.Proof.Gen.KernelIdeal.Frame
import proofs.«402811_j88493506166790_2_alg».proof.Proof.Payload
import proofs.«402811_j88493506166790_2_alg».proof.Proof.Spec
import Idealize.ShloMosaic.Lib.Pipeline.Value
import Idealize.ShloMosaic.Lib.Tactic

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body at any index of its block. -/
theorem pay_at (x : Vec Ideal S2000x128 .f32) (w : Vec Ideal S128x128 .f32) (b : Vec Ideal S128 .f32) (j : S2000x128.Idx) :
    k0_pay1 (F := Ideal) x w b j = (∑ k : Fin 128, x (ix2 (j 0) k) * w (ix2 k (j 1))) + b (ix1 (j 1)) := by
  obtain ⟨p, q, rfl⟩ : ∃ (p : Fin 2000) (q : Fin 128), j = ix2 p q := ⟨j 0, j 1, eq_ix2 j⟩
  exact Cert.KernelIdeal.Body.pay0_apply x w b p q

/-- The printed index maps over the grid: the operand's and the result's row block is the point, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The operand's block at point t is rows 2000t .. 2000t+1999 of its array. -/
theorem iblk_x (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_arg0 : Vec Ideal S50000x128 .f32) i := by
  obtain ⟨e0, e1, -⟩ := idx_facts t
  unfold iblk0
  rw [View.read_apply]
  show V c main_arg0 _ = V c main_arg0 i
  refine congrArg (V c main_arg0) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The matrix's block at every point is the whole matrix. -/
theorem iblk_w (c : Dev nD) (t : Fin cfg0.N) (y : S128x128.Idx) :
    (iblk0 V c 1 t : Vec Ideal S128x128 .f32) y = (V c main_v4 : Vec Ideal S128x128 .f32) y := by
  obtain ⟨-, -, e2, e3, -⟩ := idx_facts t
  unfold iblk0
  rw [View.read_apply]
  show V c main_v4 _ = V c main_v4 y
  refine congrArg (V c main_v4) (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias's block at every point is the whole bias. -/
theorem iblk_b (c : Dev nD) (t : Fin cfg0.N) (y : S128.Idx) :
    (iblk0 V c 2 t : Vec Ideal S128 .f32) y = (V c main_arg4 : Vec Ideal S128 .f32) y := by
  obtain ⟨-, -, -, -, e4, -⟩ := idx_facts t
  unfold iblk0
  rw [View.read_apply]
  show V c main_arg4 _ = V c main_arg4 y
  refine congrArg (V c main_arg4) (funext fun a => Fin.ext ?_)
  match a with
  | ⟨0, _⟩ => show win0_2.index t (0 : Fin 1) * 128 + 1 * (y 0).val = (y 0).val; rw [e4]; omega

/-- Where the result's block at point t sits in the result array. -/
theorem emb_out (t : Fin cfg0.N) (j : S2000x128.Idx) :
    ((((cfg0.win 3).blk t).view.emb j) 0).val = 2000 * t.val + (j 0).val
    ∧ ((((cfg0.win 3).blk t).view.emb j) 1).val = (j 1).val := by
  obtain ⟨-, -, -, -, -, e5, e6⟩ := idx_facts t
  constructor
  · show win0_3.index t (0 : Fin 2) * 2000 + 1 * (j 0).val = _; rw [e5]; omega
  · show win0_3.index t (1 : Fin 2) * 128 + 1 * (j 1).val = _; rw [e6]; omega

/-- What point t writes back is block t of the affine map of the region's three input arrays. -/
theorem flushed_eq (c : Dev nD) (t : Fin cfg0.N) :
    (dat0 V c).flushed 3 t = ((cfg0.win 3).blk t).view.read (Elt Ideal)
      (Cert.Spec.affine (V c main_arg0) (V c main_v4) (V c main_arg4)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  funext j
  refine (pay_at (iblk0 V c 0 t) (iblk0 V c 1 t) (iblk0 V c 2 t) j).trans ?_
  rw [View.read_apply]
  obtain ⟨o0, o1⟩ := emb_out t j
  unfold Cert.Spec.affine
  refine congrArg₂ (· + ·) (Finset.sum_congr rfl fun k _ => congrArg₂ (· * ·) ?_ ?_) ?_
  · exact iblk_x V c t _ _ o0 rfl
  · refine (iblk_w V c t _).trans (congrArg (V c main_v4) (funext fun a => Fin.ext ?_))
    match a with
    | ⟨0, _⟩ => rfl
    | ⟨1, _⟩ => exact o1.symm
  · refine (iblk_b V c t _).trans (congrArg (V c main_arg4) (funext fun a => Fin.ext ?_))
    match a with
    | ⟨0, _⟩ => exact o1.symm

/-- An index of the result array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Row r of the result lies in the block of point r / 2000: the 25 blocks cover the array, which therefore ends
    holding the affine map of the three arrays the region found. -/
theorem final (c : Dev nD) :
    (dat0 V c).arrAt 3 cfg0.N = Cert.Spec.affine (V c main_arg0) (V c main_v4) (V c main_arg4) :=
  (dat0 V c).arrAt_eq_of_cover 3 _ (fun t _ => flushed_eq V c t) fun i => by
    have hi0 : (i 0).val < 50000 := (i 0).isLt
    have hi1 : (i 1).val < 128 := (i 1).isLt
    have hN : cfg0.N = 25 := N_0
    obtain ⟨t, ht⟩ : ∃ t : Fin cfg0.N, t.val = (i 0).val / 2000 := ⟨⟨(i 0).val / 2000, by rw [hN]; omega⟩, rfl⟩
    obtain ⟨-, -, -, -, -, e5, e6⟩ := idx_facts t
    refine ⟨t, flush0_3 t, ?_⟩
    rw [mem_blk]
    intro a
    match a with
    | ⟨0, _⟩ =>
      show win0_3.index t (0 : Fin 2) * 2000 ≤ (i 0).val ∧ (i 0).val < win0_3.index t (0 : Fin 2) * 2000 + 2000
      rw [e5, ht]; omega
    | ⟨1, _⟩ =>
      show win0_3.index t (1 : Fin 2) * 128 ≤ (i 1).val ∧ (i 1).val < win0_3.index t (1 : Fin 2) * 128 + 128
      rw [e6]; omega

end Cert.KernelIdeal.Region0

end
-- ==== Proof.Region1.lean ====
/-
  The second pallas_call's result array. Same grid and windows as the first: point t reads rows 2000t .. 2000t+1999
  of its [50000,128] operand, the whole [128,128] matrix and the whole bias, and writes back rows 2000t .. 2000t+1999
  of the result; the body also takes the maximum with zero. The 25 row blocks tile the result, so it ends holding
  the affine map of the three arrays as the region finds them, clamped below at zero.
-/
import proofs.«402811_j88493506166790_2_alg».proof.Proof.Gen.KernelIdeal.Frame
import proofs.«402811_j88493506166790_2_alg».proof.Proof.Payload
import proofs.«402811_j88493506166790_2_alg».proof.Proof.Spec
import Idealize.ShloMosaic.Lib.Pipeline.Value
import Idealize.ShloMosaic.Lib.Tactic

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body at any index of its block. -/
theorem pay_at (x : Vec Ideal S2000x128 .f32) (w : Vec Ideal S128x128 .f32) (b : Vec Ideal S128 .f32) (j : S2000x128.Idx) :
    k1_pay1 (F := Ideal) x w b j = max ((∑ k : Fin 128, x (ix2 (j 0) k) * w (ix2 k (j 1))) + b (ix1 (j 1))) 0 := by
  obtain ⟨p, q, rfl⟩ : ∃ (p : Fin 2000) (q : Fin 128), j = ix2 p q := ⟨j 0, j 1, eq_ix2 j⟩
  exact Cert.KernelIdeal.Body.pay1_apply x w b p q

/-- The printed index maps over the grid: the operand's and the result's row block is the point, every other
    block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The operand's block at point t is rows 2000t .. 2000t+1999 of its array. -/
theorem iblk_x (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_v13 : Vec Ideal S50000x128 .f32) i := by
  obtain ⟨e0, e1, -⟩ := idx_facts t
  unfold iblk1
  rw [View.read_apply]
  show V c main_v13 _ = V c main_v13 i
  refine congrArg (V c main_v13) (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The matrix's block at every point is the whole matrix. -/
theorem iblk_w (c : Dev nD) (t : Fin cfg1.N) (y : S128x128.Idx) :
    (iblk1 V c 1 t : Vec Ideal S128x128 .f32) y = (V c main_v14 : Vec Ideal S128x128 .f32) y := by
  obtain ⟨-, -, e2, e3, -⟩ := idx_facts t
  unfold iblk1
  rw [View.read_apply]
  show V c main_v14 _ = V c main_v14 y
  refine congrArg (V c main_v14) (funext fun a => Fin.ext ?_)
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- The bias's block at every point is the whole bias. -/
theorem iblk_b (c : Dev nD) (t : Fin cfg1.N) (y : S128.Idx) :
    (iblk1 V c 2 t : Vec Ideal S128 .f32) y = (V c main_arg6 : Vec Ideal S128 .f32) y := by
  obtain ⟨-, -, -, -, e4, -⟩ := idx_facts t
  unfold iblk1
  rw [View.read_apply]
  show V c main_arg6 _ = V c main_arg6 y
  refine congrArg (V c main_arg6) (funext fun a => Fin.ext ?_)
  match a with
  | ⟨0, _⟩ => show win1_2.index t (0 : Fin 1) * 128 + 1 * (y 0).val = (y 0).val; rw [e4]; omega

/-- Where the result's block at point t sits in the result array. -/
theorem emb_out (t : Fin cfg1.N) (j : S2000x128.Idx) :
    ((((cfg1.win 3).blk t).view.emb j) 0).val = 2000 * t.val + (j 0).val
    ∧ ((((cfg1.win 3).blk t).view.emb j) 1).val = (j 1).val := by
  obtain ⟨-, -, -, -, -, e5, e6⟩ := idx_facts t
  constructor
  · show win1_3.index t (0 : Fin 2) * 2000 + 1 * (j 0).val = _; rw [e5]; omega
  · show win1_3.index t (1 : Fin 2) * 128 + 1 * (j 1).val = _; rw [e6]; omega

/-- What point t writes back is block t of the clamped affine map of the region's three input arrays. -/
theorem flushed_eq (c : Dev nD) (t : Fin cfg1.N) :
    (dat1 V c).flushed 3 t = ((cfg1.win 3).blk t).view.read (Elt Ideal)
      (Cert.Spec.affineRelu (V c main_v13) (V c main_v14) (V c main_arg6)) := by
  show (cfg1.win 3).cut (grid1.coords t) ((dat1 V c).after 3 t) = _
  rw [after1_3]
  unfold out1_3
  rw [View.canon_unit_zero hz2]
  simp only [View.ld_unit_zero (S := S2000x128) hz2, View.ld_unit_zero (S := S128x128) hz2, View.ld_unit_zero (S := S128) hz1]
  funext j
  refine (pay_at (iblk1 V c 0 t) (iblk1 V c 1 t) (iblk1 V c 2 t) j).trans ?_
  rw [View.read_apply]
  obtain ⟨o0, o1⟩ := emb_out t j
  unfold Cert.Spec.affineRelu Cert.Spec.affine
  refine congrArg (max · 0) (congrArg₂ (· + ·) (Finset.sum_congr rfl fun k _ => congrArg₂ (· * ·) ?_ ?_) ?_)
  · exact iblk_x V c t _ _ o0 rfl
  · refine (iblk_w V c t _).trans (congrArg (V c main_v14) (funext fun a => Fin.ext ?_))
    match a with
    | ⟨0, _⟩ => rfl
    | ⟨1, _⟩ => exact o1.symm
  · refine (iblk_b V c t _).trans (congrArg (V c main_arg6) (funext fun a => Fin.ext ?_))
    match a with
    | ⟨0, _⟩ => exact o1.symm

/-- An index of the result array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v15).slice (win1_3.rect t)).set ↔ _
  rw [View.set_slice_whole, Rect.mem_set_unit]
  exact Iff.rfl

/-- Row r of the result lies in the block of point r / 2000: the 25 blocks cover the array, which therefore ends
    holding the clamped affine map of the three arrays the region found. -/
theorem final (c : Dev nD) :
    (dat1 V c).arrAt 3 cfg1.N = Cert.Spec.affineRelu (V c main_v13) (V c main_v14) (V c main_arg6) :=
  (dat1 V c).arrAt_eq_of_cover 3 _ (fun t _ => flushed_eq V c t) fun i => by
    have hi0 : (i 0).val < 50000 := (i 0).isLt
    have hi1 : (i 1).val < 128 := (i 1).isLt
    have hN : cfg1.N = 25 := N_1
    obtain ⟨t, ht⟩ : ∃ t : Fin cfg1.N, t.val = (i 0).val / 2000 := ⟨⟨(i 0).val / 2000, by rw [hN]; omega⟩, rfl⟩
    obtain ⟨-, -, -, -, -, e5, e6⟩ := idx_facts t
    refine ⟨t, flush1_3 t, ?_⟩
    rw [mem_blk]
    intro a
    match a with
    | ⟨0, _⟩ =>
      show win1_3.index t (0 : Fin 2) * 2000 ≤ (i 0).val ∧ (i 0).val < win1_3.index t (0 : Fin 2) * 2000 + 2000
      rw [e5, ht]; omega
    | ⟨1, _⟩ =>
      show win1_3.index t (1 : Fin 2) * 128 ≤ (i 1).val ∧ (i 1).val < win1_3.index t (1 : Fin 2) * 128 + 128
      rw [e6]; omega

end Cert.KernelIdeal.Region1

end
-- ==== Proof.Words.lean ====
/-
  Index words. A 32-bit word w read signed in [-50000, 50000) is wrapped into a row position the way numpy does:
  w + 50000 when w is negative, w itself otherwise. The wrapped word lies in [0, 49999], so the range test on it
  succeeds. And a conjunction of ones folded from one is one.
-/
import Idealize.ShloMosaic.Lib.Affine
import Idealize.ShloMosaic.PureOps.Reduce

namespace Cert.Words

open Idealize.ShloMosaic

/-- numpy's wrap of a possibly negative index word. -/
def wrap (w : BitVec 32) : BitVec 32 := Scalar.select (IntOp.cmpi .slt w 0#32) (IntOp.addi w 50000#32) w

theorem toInt_zero : (0#32 : BitVec 32).toInt = 0 := by decide
theorem toInt_50000 : (50000#32 : BitVec 32).toInt = 50000 := by decide
theorem toInt_49999 : (49999#32 : BitVec 32).toInt = 49999 := by decide
theorem toInt_neg50000 : (4294917296#32 : BitVec 32).toInt = -50000 := by decide

/-- A word in [-50000, 50000) wraps into [0, 49999]. -/
theorem wrap_range (w : BitVec 32) (hlo : -50000 ≤ w.toInt) (hhi : w.toInt < 50000) :
    0 ≤ (wrap w).toInt ∧ (wrap w).toInt ≤ 49999 := by
  unfold wrap Scalar.select
  by_cases hneg : IntOp.cmpi .slt w 0#32 = 1
  · rw [if_pos hneg]
    have hlt : w.toInt < 0 := by have := IntOp.cmpi_slt.mp hneg; rwa [toInt_zero] at this
    have e : (IntOp.addi w 50000#32).toInt = w.toInt + 50000 := by
      rw [IntOp.addi, BitVec.toInt_add, toInt_50000]
      exact Int.bmod_eq_of_le (by omega) (by omega)
    rw [e]; omega
  · rw [if_neg hneg]
    have hge : ¬ w.toInt < 0 := fun h => hneg (IntOp.cmpi_slt.mpr (by rwa [toInt_zero]))
    omega

/-- So both comparisons of the range test on the wrapped word are ones. -/
theorem wrap_tests (w : BitVec 32) (hlo : -50000 ≤ w.toInt) (hhi : w.toInt < 50000) :
    IntOp.andi (IntOp.cmpi .sge (wrap w) 0#32) (IntOp.cmpi .sle (wrap w) 49999#32) = 1#1 := by
  obtain ⟨h0, h1⟩ := wrap_range w hlo hhi
  rw [IntOp.andi_eq_one]
  exact ⟨IntOp.cmpi_sge.mpr (by rw [toInt_zero]; exact h0), IntOp.cmpi_sle.mpr (by rw [toInt_49999]; exact h1)⟩

/-- A left fold by and over ones, started at one, is one. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

end Cert.Words
-- ==== Proof.Mask.lean ====
/-
  The row gather with a fill. The destination words d are wrapped (numpy's negative indices), made a column, tested
  against [0, 49999], the rows gathered, and a row whose test fails replaced by a fill word. When every destination
  word, read signed, lies in [-50000, 50000) every test succeeds and the filled gather is the plain gather. The
  precondition's last two conjuncts say exactly that of the second row of the edge table.
-/
import proofs.«402811_j88493506166790_2_alg».proof.Proof.Gen.KernelIdeal
import proofs.«402811_j88493506166790_2_alg».proof.Proof.Gen.Pre_finite_inputs
import proofs.«402811_j88493506166790_2_alg».proof.Proof.Words
import Idealize.ShloMosaic.Lib.ReduceAll
import Idealize.ShloMosaic.PureOps.Ideal

noncomputable section

namespace Cert.KernelIdeal.Take

open Cert.KernelIdeal Cert.KernelIdeal.Gen Idealize.ShloMosaic

/-- Row 0 of the edge table: the source words. -/
def srcWords (e : IVec S2x625000 32) : IVec S625000 32 :=
  shapeCast S625000 (extractStridedSlice S1x625000 ![0, 0] e slices_S2x625000_S1x625000_0_0) shapeCasts_S1x625000_S625000

/-- Row 1 of the edge table: the destination words. -/
def dstWords (e : IVec S2x625000 32) : IVec S625000 32 :=
  shapeCast S625000 (extractStridedSlice S1x625000 ![1, 0] e slices_S2x625000_S1x625000_1_0) shapeCasts_S1x625000_S625000

/-- The destination words wrapped, as the [625000, 1] column of start indices the gather takes. -/
def rowIdx (d : IVec S625000 32) : IVec S625000x1 32 :=
  broadcastInDim S625000x1 ![0] bcast_S625000_S625000x1_0
    (select (cmpi .slt d (broadcastInDim S625000 ![] bcast_S_S625000 (constantI S_ 32 0#32)))
      (addi d (broadcastInDim S625000 ![] bcast_S_S625000 (constantI S_ 32 50000#32))) d)

/-- Per edge: is the wrapped word a row of the 50000-row table? -/
def inRange (d : IVec S625000 32) : IVec S625000 1 :=
  Host.reduce IntOp.andi
    (andi (cmpi .sge (rowIdx d) (broadcastInDim S625000x1 ![] bcast_S_S625000x1 (constantI S_ 32 0#32)))
      (cmpi .sle (rowIdx d) (broadcastInDim S625000x1 ![0, 1] bcast_S1x1_S625000x1_0_1
        (broadcastInDim S1x1 ![1] bcast_S1_S1x1_1 (constantI S1 32 49999#32)))))
    (constantI S_ 1 1#1) reducesTo_S625000x1_S625000_d1 h_S_

/-- The gather of rows of x at the wrapped words, a row out of range replaced by the fill word. -/
def takeFill (x : FVec Ideal S50000x128 .f32) (d : IVec S625000 32) : FVec Ideal S625000x128 .f32 :=
  select (broadcastInDim S625000x128 ![0] bcast_S625000_S625000x128_0 (inRange d))
    (Host.gather gather_S50000x128_S625000x1_S625000x128_1_0_n_n_0_1_1128 x (rowIdx d))
    (broadcastInDim S625000x128 ![] bcast_S_S625000x128 (constant S_ .f32 0x7FC00000#32))

/-- Every entry of the wrapped column is the wrap of some destination word. -/
theorem rowIdx_apply (d : IVec S625000 32) (i : S625000x1.Idx) : ∃ e, rowIdx d i = Cert.Words.wrap (d e) :=
  ⟨_, rfl⟩

/-- With every destination word in [-50000, 50000), every range test is one. -/
theorem inRange_ones (d : IVec S625000 32) (hd : ∀ e, -50000 ≤ (d e).toInt ∧ (d e).toInt < 50000) (j : S625000.Idx) :
    inRange d j = 1#1 := by
  unfold inRange
  rw [Host.reduce_eq_foldl]
  refine Cert.Words.foldl_andi_ones _ (fun i => ?_) _
  obtain ⟨e, he⟩ := rowIdx_apply d i
  show IntOp.andi (IntOp.cmpi .sge (rowIdx d i) 0#32) (IntOp.cmpi .sle (rowIdx d i) 49999#32) = 1#1
  rw [he]
  exact Cert.Words.wrap_tests (d e) (hd e).1 (hd e).2

/-- So the filled gather is the plain gather. -/
theorem takeFill_eq (x : FVec Ideal S50000x128 .f32) (d : IVec S625000 32)
    (hd : ∀ e, -50000 ≤ (d e).toInt ∧ (d e).toInt < 50000) :
    takeFill x d = Host.gather gather_S50000x128_S625000x1_S625000x128_1_0_n_n_0_1_1128 x (rowIdx d) := by
  funext i
  unfold takeFill
  obtain ⟨j, hj⟩ : ∃ j, broadcastInDim S625000x128 ![0] bcast_S625000_S625000x128_0 (inRange d) i = inRange d j := ⟨_, rfl⟩
  show Scalar.select (broadcastInDim S625000x128 ![0] bcast_S625000_S625000x128_0 (inRange d) i) _ _ = _
  rw [hj, inRange_ones d hd j]
  rfl

end Cert.KernelIdeal.Take

end
-- ==== Proof.Fold.lean ====
/-
  The kernel program's result as one function of its seven argument arrays. Between the launch and the return the
  buffers pass five boundaries: the slices, reshapes and the first transpose; the first pallas_call (its result the
  affine map of X, the transposed message weights and the message bias); the filled row gather; the scatter-add onto
  the source rows, the scaling of X and their sum, and the second transpose; the second pallas_call (the clamped affine
  map of that sum, the transposed output weights and the output bias). Each boundary's contents are read off the one
  before; with every destination word a valid row the fill never applies.
-/
import proofs.«402811_j88493506166790_2_alg».proof.Proof.Gen.KernelIdeal.Frame
import proofs.«402811_j88493506166790_2_alg».proof.Proof.Region0
import proofs.«402811_j88493506166790_2_alg».proof.Proof.Region1
import proofs.«402811_j88493506166790_2_alg».proof.Proof.Mask
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.KernelIdeal.Take

/-- The message projection of every node: X against the transposed message weights, plus the message bias. -/
def msgFull (a0 : FVec Ideal S50000x128 .f32) (a3 : FVec Ideal S128x128 .f32) (a4 : FVec Ideal S128 .f32) :
    FVec Ideal S50000x128 .f32 :=
  Cert.Spec.affine a0 (transpose S128x128 [1, 0] a3 transposes_S128x128_S128x128_1_0) a4

/-- (1 + eps) X plus, on each source row, the sum of the given per-edge messages. -/
def combine (a0 : FVec Ideal S50000x128 .f32) (a1 : IVec S2x625000 32) (a2 : FVec Ideal S_ .f32)
    (msg : FVec Ideal S625000x128 .f32) : FVec Ideal S50000x128 .f32 :=
  addf (mulf (broadcastInDim S50000x128 ![] bcast_S_S50000x128 (addf (constant S_ .f32 0x3F800000#32) a2)) a0)
    (Host.scatterAdd scatter_S50000x128_S625000x1_S625000x128_1_0_0_1
      (broadcastInDim S50000x128 ![] bcast_S_S50000x128 (constant S_ .f32 0x00000000#32))
      (broadcastInDim S625000x1 ![0] bcast_S625000_S625000x1_0 (srcWords a1)) msg)

/-- The kernel program's result, the fill of the gather kept. -/
def valueFill (a0 : FVec Ideal S50000x128 .f32) (a1 : IVec S2x625000 32) (a2 : FVec Ideal S_ .f32)
    (a3 : FVec Ideal S128x128 .f32) (a4 : FVec Ideal S128 .f32) (a5 : FVec Ideal S128x128 .f32) (a6 : FVec Ideal S128 .f32) :
    FVec Ideal S50000x128 .f32 :=
  Cert.Spec.affineRelu (combine a0 a1 a2 (takeFill (msgFull a0 a3 a4) (dstWords a1)))
    (transpose S128x128 [1, 0] a5 transposes_S128x128_S128x128_1_0) a6

/-- The same with the plain gather. -/
def value (a0 : FVec Ideal S50000x128 .f32) (a1 : IVec S2x625000 32) (a2 : FVec Ideal S_ .f32)
    (a3 : FVec Ideal S128x128 .f32) (a4 : FVec Ideal S128 .f32) (a5 : FVec Ideal S128x128 .f32) (a6 : FVec Ideal S128 .f32) :
    FVec Ideal S50000x128 .f32 :=
  Cert.Spec.affineRelu
    (combine a0 a1 a2 (Host.gather gather_S50000x128_S625000x1_S625000x128_1_0_n_n_0_1_1128 (msgFull a0 a3 a4) (rowIdx (dstWords a1))))
    (transpose S128x128 [1, 0] a5 transposes_S128x128_S128x128_1_0) a6

variable (m : (ℓ : Loc nD τ sig) → Buf (Elt Ideal) ℓ) (ρ : Dev nD → PrngReg)

/-! ## After the first host stretch -/

theorem W1_arg0 (c : Dev nD) : W1 m ρ c (Proc.devRef .tc main_arg0) = m ((c : Thread nD τ).loc main_arg0) := by
  show StableHlo.after (hostOps0 (F := Ideal)) (W0 m ρ c) (Proc.devRef .tc main_arg0) = _
  after_results <;> rfl
theorem W1_arg2 (c : Dev nD) : W1 m ρ c (Proc.devRef .tc main_arg2) = m ((c : Thread nD τ).loc main_arg2) := by
  show StableHlo.after (hostOps0 (F := Ideal)) (W0 m ρ c) (Proc.devRef .tc main_arg2) = _
  after_results <;> rfl
theorem W1_arg4 (c : Dev nD) : W1 m ρ c (Proc.devRef .tc main_arg4) = m ((c : Thread nD τ).loc main_arg4) := by
  show StableHlo.after (hostOps0 (F := Ideal)) (W0 m ρ c) (Proc.devRef .tc main_arg4) = _
  after_results <;> rfl
theorem W1_arg5 (c : Dev nD) : W1 m ρ c (Proc.devRef .tc main_arg5) = m ((c : Thread nD τ).loc main_arg5) := by
  show StableHlo.after (hostOps0 (F := Ideal)) (W0 m ρ c) (Proc.devRef .tc main_arg5) = _
  after_results <;> rfl
theorem W1_arg6 (c : Dev nD) : W1 m ρ c (Proc.devRef .tc main_arg6) = m ((c : Thread nD τ).loc main_arg6) := by
  show StableHlo.after (hostOps0 (F := Ideal)) (W0 m ρ c) (Proc.devRef .tc main_arg6) = _
  after_results <;> rfl
theorem W1_v1 (c : Dev nD) : W1 m ρ c (Proc.devRef .tc main_v1) = srcWords (m ((c : Thread nD τ).loc main_arg1)) := by
  show StableHlo.after (hostOps0 (F := Ideal)) (W0 m ρ c) (Proc.devRef .tc main_v1) = _
  after_results <;> rfl
theorem W1_v3 (c : Dev nD) : W1 m ρ c (Proc.devRef .tc main_v3) = dstWords (m ((c : Thread nD τ).loc main_arg1)) := by
  show StableHlo.after (hostOps0 (F := Ideal)) (W0 m ρ c) (Proc.devRef .tc main_v3) = _
  after_results <;> rfl
theorem W1_v4 (c : Dev nD) : W1 m ρ c (Proc.devRef .tc main_v4)
    = transpose S128x128 [1, 0] (m ((c : Thread nD τ).loc main_arg3)) transposes_S128x128_S128x128_1_0 := by
  show StableHlo.after (hostOps0 (F := Ideal)) (W0 m ρ c) (Proc.devRef .tc main_v4) = _
  after_results <;> rfl

/-! ## After the first pallas_call -/

/-- The first call's result array: the message projection. -/
theorem W2_v5 (c : Dev nD) : W2 m ρ c (Proc.devRef .tc main_v5)
    = msgFull (m ((c : Thread nD τ).loc main_arg0)) (m ((c : Thread nD τ).loc main_arg3)) (m ((c : Thread nD τ).loc main_arg4)) := by
  refine (W2_arr m ρ c 3).trans ((Cert.KernelIdeal.Region0.final (V1 m ρ) c).trans ?_)
  show Cert.Spec.affine (W1 m ρ c (Proc.devRef .tc main_arg0)) (W1 m ρ c (Proc.devRef .tc main_v4)) (W1 m ρ c (Proc.devRef .tc main_arg4)) = _
  rw [W1_arg0, W1_v4, W1_arg4]
  rfl

/-- Every buffer that is no array of the first call keeps its contents across it. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-- The first call's operand X is one of its arrays, read and never written: it too keeps its contents. -/
theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-! ## After the gather's stretch -/

set_option maxHeartbeats 1000000 in
theorem W3_v6 (c : Dev nD) : (W3 m ρ c (Proc.devRef .tc main_v6) : FVec Ideal S625000x128 .f32)
    = takeFill (W2 m ρ c (Proc.devRef .tc main_v5) : FVec Ideal S50000x128 .f32) (W2 m ρ c (Proc.devRef .tc main_v3) : IVec S625000 32) := by
  show StableHlo.after (hostOps1 (F := Ideal)) (W2 m ρ c) (Proc.devRef .tc main_v6) = _
  generalize W2 m ρ c = Y
  after_results_simp
  dsimp only [TRef.ofBuf, TRef.toBuf, cast_eq]
  rfl
theorem W3_arg0 (c : Dev nD) : W3 m ρ c (Proc.devRef .tc main_arg0) = W2 m ρ c (Proc.devRef .tc main_arg0) := by
  show StableHlo.after (hostOps1 (F := Ideal)) (W2 m ρ c) (Proc.devRef .tc main_arg0) = _
  generalize W2 m ρ c = Y
  after_results_simp <;> rfl
theorem W3_arg2 (c : Dev nD) : W3 m ρ c (Proc.devRef .tc main_arg2) = W2 m ρ c (Proc.devRef .tc main_arg2) := by
  show StableHlo.after (hostOps1 (F := Ideal)) (W2 m ρ c) (Proc.devRef .tc main_arg2) = _
  generalize W2 m ρ c = Y
  after_results_simp <;> rfl
theorem W3_arg5 (c : Dev nD) : W3 m ρ c (Proc.devRef .tc main_arg5) = W2 m ρ c (Proc.devRef .tc main_arg5) := by
  show StableHlo.after (hostOps1 (F := Ideal)) (W2 m ρ c) (Proc.devRef .tc main_arg5) = _
  generalize W2 m ρ c = Y
  after_results_simp <;> rfl
theorem W3_arg6 (c : Dev nD) : W3 m ρ c (Proc.devRef .tc main_arg6) = W2 m ρ c (Proc.devRef .tc main_arg6) := by
  show StableHlo.after (hostOps1 (F := Ideal)) (W2 m ρ c) (Proc.devRef .tc main_arg6) = _
  generalize W2 m ρ c = Y
  after_results_simp <;> rfl
theorem W3_v1 (c : Dev nD) : W3 m ρ c (Proc.devRef .tc main_v1) = W2 m ρ c (Proc.devRef .tc main_v1) := by
  show StableHlo.after (hostOps1 (F := Ideal)) (W2 m ρ c) (Proc.devRef .tc main_v1) = _
  generalize W2 m ρ c = Y
  after_results_simp <;> rfl

/-! ## After the scatter's stretch -/

theorem W4_v13 (c : Dev nD) : (W4 m ρ c (Proc.devRef .tc main_v13) : FVec Ideal S50000x128 .f32)
    = addf (F := Ideal) (mulf (F := Ideal) (broadcastInDim S50000x128 ![] bcast_S_S50000x128 (addf (F := Ideal) (constant (F := Ideal) S_ .f32 0x3F800000#32) (W3 m ρ c (Proc.devRef .tc main_arg2) : FVec Ideal S_ .f32))) (W3 m ρ c (Proc.devRef .tc main_arg0) : FVec Ideal S50000x128 .f32))
        (Host.scatterAdd (F := Ideal) scatter_S50000x128_S625000x1_S625000x128_1_0_0_1
          (broadcastInDim S50000x128 ![] bcast_S_S50000x128 (constant (F := Ideal) S_ .f32 0x00000000#32))
          (broadcastInDim S625000x1 ![0] bcast_S625000_S625000x1_0 (W3 m ρ c (Proc.devRef .tc main_v1) : IVec S625000 32))
          (W3 m ρ c (Proc.devRef .tc main_v6) : FVec Ideal S625000x128 .f32)) := by
  show StableHlo.after (hostOps1_1 (F := Ideal)) (W3 m ρ c) (Proc.devRef .tc main_v13) = _
  generalize W3 m ρ c = Y
  after_results <;> rfl
theorem W4_v14 (c : Dev nD) : (W4 m ρ c (Proc.devRef .tc main_v14) : FVec Ideal S128x128 .f32)
    = transpose S128x128 [1, 0] (W3 m ρ c (Proc.devRef .tc main_arg5) : FVec Ideal S128x128 .f32) transposes_S128x128_S128x128_1_0 := by
  show StableHlo.after (hostOps1_1 (F := Ideal)) (W3 m ρ c) (Proc.devRef .tc main_v14) = _
  generalize W3 m ρ c = Y
  after_results <;> rfl
theorem W4_arg6 (c : Dev nD) : W4 m ρ c (Proc.devRef .tc main_arg6) = W3 m ρ c (Proc.devRef .tc main_arg6) := by
  show StableHlo.after (hostOps1_1 (F := Ideal)) (W3 m ρ c) (Proc.devRef .tc main_arg6) = _
  generalize W3 m ρ c = Y
  after_results <;> rfl

/-! ## After the second pallas_call: the result -/

/-- The result buffer at the return, the fill of the gather kept. -/
theorem result_fill (c : Dev nD) : W5 m ρ c (Proc.devRef .tc main_v15)
    = valueFill (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W5_arr m ρ c 3).trans ((Cert.KernelIdeal.Region1.final (V4 m ρ) c).trans ?_)
  show Cert.Spec.affineRelu (W4 m ρ c (Proc.devRef .tc main_v13)) (W4 m ρ c (Proc.devRef .tc main_v14)) (W4 m ρ c (Proc.devRef .tc main_arg6)) = _
  rw [W4_v13, W4_v14, W4_arg6, W3_v6, W3_arg0, W3_arg2, W3_arg5, W3_arg6, W3_v1, W2_v5,
    W2_keep m ρ c main_v3 (by decide), W2_arg0, W2_keep m ρ c main_arg2 (by decide),
    W2_keep m ρ c main_arg5 (by decide), W2_keep m ρ c main_arg6 (by decide), W2_keep m ρ c main_v1 (by decide),
    W1_v3, W1_arg0, W1_arg2, W1_arg5, W1_arg6, W1_v1]
  rfl

/-- With every destination word a valid row, the result buffer at the return is `value` of the arguments. -/
theorem result (c : Dev nD)
    (hd : ∀ e, -50000 ≤ (dstWords (m ((c : Thread nD τ).loc main_arg1)) e).toInt ∧ (dstWords (m ((c : Thread nD τ).loc main_arg1)) e).toInt < 50000) :
    W5 m ρ c (Proc.devRef .tc main_v15)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [result_fill]
  unfold valueFill value
  rw [takeFill_eq _ _ hd]

end Cert.KernelIdeal.Fold

end
-- ==== Proof.ValueT.lean ====
/-
  The kernel program's result with the weights as given: a transposed matrix read at (k, g) is the matrix at (g, k),
  so each affine map against a transposed matrix is the map that contracts the matrix along its second axis.
-/
import proofs.«402811_j88493506166790_2_alg».proof.Proof.Fold

noncomputable section

namespace Cert.KernelIdeal.Fold

open Cert.KernelIdeal Cert.KernelIdeal.Gen Idealize.ShloMosaic Cert.KernelIdeal.Take

/-- The result as a function of the arguments, no transpose left. -/
def valueT (a0 : FVec Ideal S50000x128 .f32) (a1 : IVec S2x625000 32) (a2 : FVec Ideal S_ .f32)
    (a3 : FVec Ideal S128x128 .f32) (a4 : FVec Ideal S128 .f32) (a5 : FVec Ideal S128x128 .f32) (a6 : FVec Ideal S128 .f32) :
    FVec Ideal S50000x128 .f32 :=
  Cert.Spec.affineReluT
    (combine a0 a1 a2 (Host.gather gather_S50000x128_S625000x1_S625000x128_1_0_n_n_0_1_1128 (Cert.Spec.affineT a0 a3 a4) (rowIdx (dstWords a1))))
    a5 a6

theorem value_eq (a0 : FVec Ideal S50000x128 .f32) (a1 : IVec S2x625000 32) (a2 : FVec Ideal S_ .f32)
    (a3 : FVec Ideal S128x128 .f32) (a4 : FVec Ideal S128 .f32) (a5 : FVec Ideal S128x128 .f32) (a6 : FVec Ideal S128 .f32) :
    value a0 a1 a2 a3 a4 a5 a6 = valueT a0 a1 a2 a3 a4 a5 a6 := by
  unfold value valueT msgFull
  rw [Cert.Spec.affineRelu_transpose, Cert.Spec.affine_transpose]

end Cert.KernelIdeal.Fold

end
-- ==== Proof.PreRange.lean ====
/-
  The precondition read back. Its last two conjuncts are the conjunctions, over the 625000 edges, of
  "dst >= -50000" and "dst < 50000" (signed) on the second row of the edge table; the whole predicate being one,
  each of them is one, so every destination word, read signed, lies in [-50000, 50000).
-/
import proofs.«402811_j88493506166790_2_alg».proof.Proof.Mask
import Idealize.ShloMosaic.Lib.ValueIdx

noncomputable section

namespace Cert.KernelIdeal.Take

open Cert.KernelIdeal Cert.KernelIdeal.Gen Idealize.ShloMosaic

theorem dst_range (x0 : FVec Ideal S50000x128 .f32) (x1 : IVec S2x625000 32) (x2 : FVec Ideal S_ .f32)
    (x3 : FVec Ideal S128x128 .f32) (x4 : FVec Ideal S128 .f32) (x5 : FVec Ideal S128x128 .f32) (x6 : FVec Ideal S128 .f32)
    (h : Cert.Pre_finite_inputs.fn (F := Ideal) x0 x1 x2 x3 x4 x5 x6 = fun _ => 1#1) (e : S625000.Idx) :
    -50000 ≤ (dstWords x1 e).toInt ∧ (dstWords x1 e).toInt < 50000 := by
  have h0 := congrFun h ValueIdx.ix0
  unfold Cert.Pre_finite_inputs.fn Cert.Pre_finite_inputs.fn_part1 Cert.Pre_finite_inputs.fn_part2 at h0
  have h0' : IntOp.andi (IntOp.andi _ _) _ = 1#1 := h0
  obtain ⟨h1, hlt⟩ := IntOp.andi_eq_one.mp h0'
  obtain ⟨-, hge⟩ := IntOp.andi_eq_one.mp h1
  haveI : Subsingleton (Cert.Pre_finite_inputs.S_.Idx) := ⟨fun a b => funext fun d => d.elim0⟩
  have hlt' := Host.reduce_andi_all _ _ _ _ _ hlt e
  have hge' := Host.reduce_andi_all _ _ _ _ _ hge e
  have a : (4294917296#32 : BitVec 32).toInt ≤ (dstWords x1 e).toInt := IntOp.cmpi_sge.mp hge'
  have b : (dstWords x1 e).toInt < (50000#32 : BitVec 32).toInt := IntOp.cmpi_slt.mp hlt'
  rw [Cert.Words.toInt_neg50000] at a
  rw [Cert.Words.toInt_50000] at b
  exact ⟨a, b⟩

end Cert.KernelIdeal.Take

end
-- ==== Proof.RefValue.lean ====
/-
  The reference's stages as the same maps. Its first contraction plus the broadcast bias is the affine map of X,
  the message weights (contracted along their second axis) and the message bias; its result is the clamped affine
  map of its combined array, the output weights and the output bias.
-/
import proofs.«402811_j88493506166790_2_alg».proof.Proof.Gen.ReferenceIdeal.Run
import proofs.«402811_j88493506166790_2_alg».proof.Proof.Gen.ReferenceIdeal.Read
import proofs.«402811_j88493506166790_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- The message projection: the contraction of X with the weights along both second axes, plus the bias. -/
theorem v7_eq (x0 : FVec Ideal S50000x128 .f32) (x3 : FVec Ideal S128x128 .f32) (x4 : FVec Ideal S128 .f32) :
    val_main_v7 (F := Ideal) x0 x3 x4 = Cert.Spec.affineT x0 x3 x4 := by
  funext i
  rw [val_main_v7_apply, val_main_v4_apply, val_main_v6_apply, val_main_v5_apply]
  unfold Cert.Spec.affineT
  refine congrArg₂ (· + ·) (Finset.sum_congr rfl fun k _ => congrArg₂ (· * ·) (congrArg x0 ?_) (congrArg x3 ?_)) (congrArg x4 ?_)
  · funext a; match a with | ⟨0, _⟩ => rfl | ⟨1, _⟩ => rfl
  · funext a; match a with | ⟨0, _⟩ => rfl | ⟨1, _⟩ => rfl
  · funext a; match a with | ⟨0, _⟩ => rfl

/-- The result: the contraction of the combined array with the output weights, plus the bias, clamped at zero. -/
theorem v26_eq (x0 : FVec Ideal S50000x128 .f32) (x1 : IVec S2x625000 32) (x2 : FVec Ideal S_ .f32)
    (x3 : FVec Ideal S128x128 .f32) (x4 : FVec Ideal S128 .f32) (x5 : FVec Ideal S128x128 .f32) (x6 : FVec Ideal S128 .f32) :
    val_main_v26 (F := Ideal) x0 x1 x2 x3 x4 x5 x6
      = Cert.Spec.affineReluT (val_main_v21 (F := Ideal) x0 x1 x2 x3 x4) x5 x6 := by
  funext i
  rw [val_main_v26_apply, val_main_v25_apply, val_main_v22_apply, val_main_v24_apply, val_main_v23_apply,
    val_main_call0_v0_apply, val_main_call0_cst_apply]
  unfold Cert.Spec.affineReluT Cert.Spec.affineT
  generalize val_main_v21 (F := Ideal) x0 x1 x2 x3 x4 = y
  refine congrArg₂ max (congrArg₂ (· + ·) (Finset.sum_congr rfl fun k _ => congrArg₂ (· * ·) (congrArg y ?_) (congrArg x5 ?_)) (congrArg x6 ?_)) ?_
  · funext a; match a with | ⟨0, _⟩ => rfl | ⟨1, _⟩ => rfl
  · funext a; match a with | ⟨0, _⟩ => rfl | ⟨1, _⟩ => rfl
  · funext a; match a with | ⟨0, _⟩ => rfl
  · exact Ideal.ofBits_zero_f32

end Cert.ReferenceIdeal.RefValue

end
-- ==== Proof.lean ====
/-
  Two dense layers around an edge gather and a segment sum, against the same computation written with jnp.

  Both programs compute, over the extended reals,
    out(n, g) = max (sum over k of C(n, k) * lin_w(g, k) + lin_b(g)) 0,
    C = (1 + eps) X + S,  S(n, :) = sum over the edges e with src(e) = n of M(row(dst(e)), :),
    M(n, g) = sum over k of X(n, k) * msg_w(g, k) + msg_b(g),
  where row wraps a negative word by 50000. The kernel program computes M and out by two pallas_calls over 25 row
  blocks each, handing them the transposed weights; the reference contracts X and C with the weights along their
  second axes. Between the calls both apply the same gather and the same scatter-add; the kernel's gather also
  replaces a row whose wrapped word is outside [0, 49999] by a fill word, which never happens when every destination
  word lies in [-50000, 50000) — the range of a valid numpy index of a 50000-row array, which the precondition states.
  No law beyond the reindexing of a finite sum is used, so the finiteness of the float inputs is not.
-/
import proofs.«402811_j88493506166790_2_alg».proof.Defs
import proofs.«402811_j88493506166790_2_alg».proof.Proof.Gen.Kernel
import proofs.«402811_j88493506166790_2_alg».proof.Proof.Gen.Kernel.Skeleton
import proofs.«402811_j88493506166790_2_alg».proof.Proof.Gen.Kernel.Launch
import proofs.«402811_j88493506166790_2_alg».proof.Proof.Gen.Kernel.Points
import proofs.«402811_j88493506166790_2_alg».proof.Proof.Gen.Kernel.Frame
import proofs.«402811_j88493506166790_2_alg».proof.Proof.Gen.KernelIdeal
import proofs.«402811_j88493506166790_2_alg».proof.Proof.Gen.KernelIdeal.Skeleton
import proofs.«402811_j88493506166790_2_alg».proof.Proof.Gen.KernelIdeal.Launch
import proofs.«402811_j88493506166790_2_alg».proof.Proof.Gen.KernelIdeal.Points
import proofs.«402811_j88493506166790_2_alg».proof.Proof.Gen.KernelIdeal.Frame
import proofs.«402811_j88493506166790_2_alg».proof.Proof.Gen.ReferenceIdeal
import proofs.«402811_j88493506166790_2_alg».proof.Proof.Gen.ReferenceIdeal.Run
import proofs.«402811_j88493506166790_2_alg».proof.Proof.Gen.ReferenceIdeal.Read
import proofs.«402811_j88493506166790_2_alg».proof.Proof.Gen.Pre_finite_inputs
import proofs.«402811_j88493506166790_2_alg».proof.Proof.KernelRun
import proofs.«402811_j88493506166790_2_alg».proof.Proof.ValueT
import proofs.«402811_j88493506166790_2_alg».proof.Proof.PreRange
import proofs.«402811_j88493506166790_2_alg».proof.Proof.RefValue
import Idealize.ShloMosaic.Adequacy
import Idealize.ShloMosaic.Init

noncomputable section

namespace Cert.Proof

open Idealize.ShloMosaic Idealize.ShloMosaic.TcCoe Idealize.SL.Sem

/-- The kernel program's function of the arguments is the reference's: the two affine maps are the reference's two
    contractions with their biases (the second clamped), and between them the two programs apply the same operations. -/
theorem bridge (a0 : FVec Ideal Cert.KernelIdeal.S50000x128 .f32) (a1 : IVec Cert.KernelIdeal.S2x625000 32)
    (a2 : FVec Ideal Cert.KernelIdeal.S_ .f32) (a3 : FVec Ideal Cert.KernelIdeal.S128x128 .f32)
    (a4 : FVec Ideal Cert.KernelIdeal.S128 .f32) (a5 : FVec Ideal Cert.KernelIdeal.S128x128 .f32)
    (a6 : FVec Ideal Cert.KernelIdeal.S128 .f32) :
    Cert.KernelIdeal.Fold.valueT a0 a1 a2 a3 a4 a5 a6
      = Cert.ReferenceIdeal.Read.val_main_v26 (F := Ideal) a0 a1 a2 a3 a4 a5 a6 := by
  rw [Cert.ReferenceIdeal.RefValue.v26_eq]
  unfold Cert.KernelIdeal.Fold.valueT
  refine congrArg (fun C => Cert.Spec.affineReluT C a5 a6) ?_
  rw [← Cert.ReferenceIdeal.RefValue.v7_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's function of the (agreeing) arguments. -/
theorem algebraic : Cert.algebraic_KernelIdeal_ReferenceIdeal := by
  intro m ρ m' ρ' hpre hagree
  refine ⟨fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Run.run_main (F := Ideal) m ρ)
    rw [Cert.KernelIdeal.Fold.result m ρ c (fun e => Cert.KernelIdeal.Take.dst_range _ _ _ _ _ _ _ (hpre c) e),
      Cert.KernelIdeal.Fold.value_eq]
    exact bridge _ _ _ _ _ _ _
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact Cert.ReferenceIdeal.Read.val_main_v26_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
